-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S512x1000 : Shape := ⟨2, ![512, 1000]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1000 : S_.BroadcastsInDim S512x1000 (![] : Fin 0 → Fin S512x1000.rank)
  reducesTo_S512x1000_S_d0_1 : S512x1000.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x512 .f32) (main_arg1 : IVec S16384 32) (main_arg2 : FVec F S512x1000 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x1000 .f32 := Host.absf main_arg2
  let main_cst_0 : FVec F S_ .f32 := constant S_ .f32 0x7F800000#32
  let main_v5 : FVec F S512x1000 .f32 := broadcastInDim S512x1000 ![] bcast_S_S512x1000 main_cst_0
  let main_v6 : IVec S512x1000 1 := cmpf .olt main_v4 main_v5
  let main_c_1 : IVec S_ 1 := constantI S_ 1 1#1
  let main_v7 : IVec S_ 1 := (fun x v => Host.reduce IntOp.andi x v reducesTo_S512x1000_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 1000#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x512 : Shape := ⟨2, ![16384, 512]⟩
abbrev S16384 : Shape := ⟨1, ![16384]⟩
abbrev S512x1000 : Shape := ⟨2, ![512, 1000]⟩
abbrev S_ : Shape := ⟨0, ![]⟩
abbrev S1000 : Shape := ⟨1, ![1000]⟩
abbrev S1x1000 : Shape := ⟨2, ![1, 1000]⟩
abbrev S512x1024 : Shape := ⟨2, ![512, 1024]⟩
abbrev S16384x1 : Shape := ⟨2, ![16384, 1]⟩
abbrev S1024x512 : Shape := ⟨2, ![1024, 512]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 23
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S512x1000, .f32⟩
  | .hbm, ⟨3, _⟩ => ⟨S512x1000, .f32⟩
  | .hbm, ⟨4, _⟩ => ⟨S_, .f32⟩
  | .hbm, ⟨5, _⟩ => ⟨S1000, .f32⟩
  | .hbm, ⟨6, _⟩ => ⟨S1x1000, .f32⟩
  | .hbm, ⟨7, _⟩ => ⟨S1x1000, .f32⟩
  | .hbm, ⟨8, _⟩ => ⟨S_, .f32⟩
  | .hbm, ⟨9, _⟩ => ⟨S1x1000, .f32⟩
  | .hbm, ⟨10, _⟩ => ⟨S1x1000, .f32⟩
  | .hbm, ⟨11, _⟩ => ⟨S512x1000, .f32⟩
  | .hbm, ⟨12, _⟩ => ⟨S512x1000, .f32⟩
  | .hbm, ⟨13, _⟩ => ⟨S_, .i32⟩
  | .hbm, ⟨14, _⟩ => ⟨S_, .f32⟩
  | .hbm, ⟨15, _⟩ => ⟨S512x1024, .f32⟩
  | .hbm, ⟨16, _⟩ => ⟨S512x1024, .bf16⟩
  | .hbm, ⟨17, _⟩ => ⟨S16384x1, .i32⟩
  | .hbm, ⟨18, _⟩ => ⟨S16384x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1, .i32⟩
  | .local _ .vmem, ⟨4, _⟩ => ⟨S1024x1, .i32⟩
  | .local _ .vmem, ⟨5, _⟩ => ⟨S1024x1, .f32⟩
  | .local _ .vmem, ⟨6, _⟩ => ⟨S1024x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x1000_S1000_d0 : S512x1000.ReducesTo [0] S1000
  h_S_ : 0 < S_.numel
  bcast_S1000_S1x1000_1 : S1000.BroadcastsInDim S1x1000 (![1] : Fin 1 → Fin S1x1000.rank)
  bcast_S_S1x1000 : S_.BroadcastsInDim S1x1000 (![] : Fin 0 → Fin S1x1000.rank)
  bcast_S1x1000_S512x1000_0_1 : S1x1000.BroadcastsInDim S512x1000 (![0, 1] : Fin 2 → Fin S512x1000.rank)
  pads_S512x1000_S512x1024_000_0240 : S512x1000.Pads (![0, 0] : Fin 2 → Nat) ![0, 24] ![0, 0] S512x1024
  bitsLt_bf16_f32 : FTy.bits .bf16 < FTy.bits .f32
  bcast_S16384_S16384x1_0 : S16384.BroadcastsInDim S16384x1 (![0] : Fin 1 → Fin S16384x1.rank)
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reducesTo_S16384x1_S_d0_1 : S16384x1.ReducesTo [0, 1] S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .i32 = 32 ∨ (Rect.block (s := S16384x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384 : Shape := ⟨1, ![16384]⟩
abbrev S512x1000 : Shape := ⟨2, ![512, 1000]⟩
abbrev S_ : Shape := ⟨0, ![]⟩
abbrev S1000 : Shape := ⟨1, ![1000]⟩
abbrev S1x1000 : Shape := ⟨2, ![1, 1000]⟩
abbrev S16384x1000 : Shape := ⟨2, ![16384, 1000]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S512x1000, .f32⟩
  | .hbm, ⟨3, _⟩ => ⟨S512x1000, .f32⟩
  | .hbm, ⟨4, _⟩ => ⟨S_, .f32⟩
  | .hbm, ⟨5, _⟩ => ⟨S1000, .f32⟩
  | .hbm, ⟨6, _⟩ => ⟨S1x1000, .f32⟩
  | .hbm, ⟨7, _⟩ => ⟨S1x1000, .f32⟩
  | .hbm, ⟨8, _⟩ => ⟨S_, .f32⟩
  | .hbm, ⟨9, _⟩ => ⟨S1x1000, .f32⟩
  | .hbm, ⟨10, _⟩ => ⟨S1x1000, .f32⟩
  | .hbm, ⟨11, _⟩ => ⟨S512x1000, .f32⟩
  | .hbm, ⟨12, _⟩ => ⟨S512x1000, .f32⟩
  | .hbm, ⟨13, _⟩ => ⟨S16384x1000, .f32⟩
  | .hbm, ⟨14, _⟩ => ⟨S_, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384x1, .f32⟩
  | .hbm, ⟨20, _⟩ => ⟨S16384x1000, .f32⟩
  | .hbm, ⟨21, _⟩ => ⟨S16384x1000, .f32⟩
  | .hbm, ⟨22, _⟩ => ⟨S16384x1000, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S16384x1, .f32⟩
  | .hbm, ⟨27, _⟩ => ⟨S16384x1000, .f32⟩
  | .hbm, ⟨28, _⟩ => ⟨S16384x1000, .f32⟩
  | .hbm, ⟨29, _⟩ => ⟨S16384x1, .i32⟩
  | .hbm, ⟨30, _⟩ => ⟨S_, .i32⟩
  | .hbm, ⟨31, _⟩ => ⟨S16384x1, .i32⟩
  | .hbm, ⟨32, _⟩ => ⟨S16384x1, .i1⟩
  | .hbm, ⟨33, _⟩ => ⟨S_, .i32⟩
  | .hbm, ⟨34, _⟩ => ⟨S16384x1, .i32⟩
  | .hbm, ⟨35, _⟩ => ⟨S16384x1, .i32⟩
  | .hbm, ⟨36, _⟩ => ⟨S16384x1, .i32⟩
  | .hbm, ⟨37, _⟩ => ⟨S16384x1x1, .i32⟩
  | .hbm, ⟨38, _⟩ => ⟨S1, .i32⟩
  | .hbm, ⟨39, _⟩ => ⟨S_, .i32⟩
  | .hbm, ⟨40, _⟩ => ⟨S16384x1x1, .i32⟩
  | .hbm, ⟨41, _⟩ => ⟨S16384x1x1, .i1⟩
  | .hbm, ⟨42, _⟩ => ⟨S1x1x1, .i32⟩
  | .hbm, ⟨43, _⟩ => ⟨S16384x1x1, .i32⟩
  | .hbm, ⟨44, _⟩ => ⟨S16384x1x1, .i1⟩
  | .hbm, ⟨45, _⟩ => ⟨S16384x1x1, .i1⟩
  | .hbm, ⟨46, _⟩ => ⟨S_, .i1⟩
  | .hbm, ⟨47, _⟩ => ⟨S16384x1, .i1⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384, .f32⟩
  | .hbm, ⟨53, _⟩ => ⟨S16384, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_cst : Ref sig .tc := ⟨.hbm, 14, rfl⟩
abbrev main_call1_v0 : Ref sig .tc := ⟨.hbm, 15, rfl⟩
abbrev main_call1_cst_0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_cst_1 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_v6 : Ref sig .tc := ⟨.hbm, 28, rfl⟩
abbrev main_v7 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_0 : Ref sig .tc := ⟨.hbm, 54, rfl⟩
abbrev main_v11 : Ref sig .tc := ⟨.hbm, 55, rfl⟩
abbrev main_cst_1 : Ref sig .tc := ⟨.hbm, 56, rfl⟩
abbrev main_v12 : Ref sig .tc := ⟨.hbm, 57, rfl⟩

abbrev nD : Nat := 1
abbrev τ : Topo := Topo.v7x

variable {F : FTy → Type} [FloatOps F]

class Facts₀ : Prop where
  reducesTo_S512x1000_S1000_d0 : S512x1000.ReducesTo [0] S1000
  h_S_ : 0 < S_.numel
  bcast_S1000_S1x1000_1 : S1000.BroadcastsInDim S1x1000 (![1] : Fin 1 → Fin S1x1000.rank)
  bcast_S_S1x1000 : S_.BroadcastsInDim S1x1000 (![] : Fin 0 → Fin S1x1000.rank)
  bcast_S1x1000_S512x1000_0_1 : S1x1000.BroadcastsInDim S512x1000 (![0, 1] : Fin 2 → Fin S512x1000.rank)
  reducesTo_S16384x1000_S16384_d1 : S16384x1000.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  dot_S16384x512_S512x1000_S16384x1000_1_0_0_1_n_n_wf : DotDims.WF S16384x512 S512x1000 S16384x1000 [1] [0] [0] [1] [] []
  gather_S16384x1000_S16384x1x1_S16384x1_n_1_0_0_1_2_11_wf : GatherDims.WF S16384x1000 S16384x1x1 S16384x1 [] [1] [0] [1] [0] 2 ![1, 1]

variable [Facts₀]

def dot_S16384x512_S512x1000_S16384x1000_1_0_0_1_n_n : DotDims S16384x512 S512x1000 S16384x1000 where
  lhsContracting := [1]
  rhsContracting := [0]
  lhsNonContracting := [0]
  rhsNonContracting := [1]
  lhsBatch := []
  rhsBatch := []
  wf := dot_S16384x512_S512x1000_S16384x1000_1_0_0_1_n_n_wf
def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf

class Facts : Prop extends Facts₀ where

variable [Facts]
-- ==== Proof.Spec.lean ====
/-
  The loss both programs compute, as one function of the three argument arrays, over literal shapes.

  Every column of the centre matrix is divided by its Euclidean norm, floored at the printed epsilon; the logit of
  sample b against class j is the inner product of row b of the features with that normalised column; a sample's
  value is minus its log-softmax at its label, written with the row maximum subtracted before the exponential, as
  both programs subtract it; the loss is the mean of the 16384 sample values.

  The kernel works on rows padded from 1000 to 1024 classes, the 24 extra lanes holding the bottom element, and
  picks the label's logit by a sum over lanes of a one-lane selection: `kerRow` is that spelling of a sample's value.
-/
import Idealize.ShloMosaic.PureOps.Ideal
import Idealize.ShloMosaic.Lib.ValueIdx

noncomputable section

namespace Cert.SupCon

open Idealize.ShloMosaic Idealize.ShloMosaic.ValueIdx

abbrev SFeat : Shape := ⟨2, ![16384, 512]⟩
abbrev SLab : Shape := ⟨1, ![16384]⟩
abbrev SCen : Shape := ⟨2, ![512, 1000]⟩

/-- The Euclidean norm of column j of the centre matrix, floored at the printed epsilon (the word 0x2B8CBCCC). -/
def colNorm (x2 : FVec Ideal SCen .f32) (j : Fin 1000) : EReal :=
  max (Ideal.sqrt (∑ d : Fin 512, x2 (ix2 d j) * x2 (ix2 d j))) (Ideal.ofBits .f32 0x2B8CBCCC#32)

/-- The centre matrix with every column divided by its floored norm. -/
def cmat (x2 : FVec Ideal SCen .f32) (k : Fin 512) (j : Fin 1000) : EReal :=
  Ideal.div (x2 (ix2 k j)) (colNorm x2 j)

/-- The logit of sample b against class j. -/
def logit (x0 : FVec Ideal SFeat .f32) (x2 : FVec Ideal SCen .f32) (b : Fin 16384) (j : Fin 1000) : EReal :=
  ∑ k : Fin 512, x0 (ix2 b k) * cmat x2 k j

/-- The maximum of a row of 1000 logits, folded from the bottom element. -/
def rowMax (z : Fin 1000 → EReal) : EReal := (Finset.univ : Finset (Fin 1000)).fold max ⊥ z

/-- The sum of the exponentials of a row's logits, each less the row maximum. -/
def rowSum (z : Fin 1000 → EReal) : EReal := ∑ j : Fin 1000, Ideal.exp (z j - rowMax z)

/-- A sample's value as the reference writes it: minus (the shifted logit at the label, less the log of the row sum). -/
def refRow (z : Fin 1000 → EReal) (y : Fin 1000) : EReal := -((z y - rowMax z) - Ideal.log (rowSum z))

/-- A row of 1000 logits padded to 1024 lanes with the bottom element. -/
def padRow (z : Fin 1000 → EReal) (j : Fin 1024) : EReal := if h : j.val < 1000 then z ⟨j.val, h⟩ else ⊥

/-- The maximum of the padded row. -/
def padMax (z : Fin 1000 → EReal) : EReal := (Finset.univ : Finset (Fin 1024)).fold max ⊥ (padRow z)

/-- A sample's value as the kernel writes it: (row maximum plus log of the padded row's exponential sum) less the
    sum over lanes of the lane's entry where the lane is the label and zero elsewhere. -/
def kerRow (z : Fin 1000 → EReal) (y : Fin 1000) : EReal :=
  (padMax z + Ideal.log (∑ j : Fin 1024, Ideal.exp (padRow z j - padMax z)))
    - ∑ j : Fin 1024, (if j.val = y.val then padRow z j else 0)

/-- A sample's label as a class, read off its 32-bit word (reduced modulo 1000; on the admitted inputs the word is
    already below 1000). -/
def label (x1 : IVec SLab 32) (b : Fin 16384) : Fin 1000 :=
  ⟨(x1 (ix1 b)).toNat % 1000, Nat.mod_lt _ (by norm_num)⟩

/-- The loss: the sum of the 16384 sample values divided by the printed count (the word 0x46800000). -/
def loss (x0 : FVec Ideal SFeat .f32) (x1 : IVec SLab 32) (x2 : FVec Ideal SCen .f32) : EReal :=
  Ideal.div (∑ b : Fin 16384, refRow (logit x0 x2 b) (label x1 b)) (Ideal.ofBits .f32 0x46800000#32)

end Cert.SupCon

end
-- ==== Proof.PreFacts.lean ====
/-
  What the precondition says of the three arguments.

  The precondition is the conjunction of three statements, each an "and" over all entries of an array of bits:
  |features| < +∞ at every entry, |centre| < +∞ at every entry, and 0 ≤ label < 1000 (both read signed) at every sample.
  Its value is one bit, and the hypothesis is that this bit is 1.

  An "and" of bits is 1 exactly when both are, and an "and" over a whole array that is 1 met a 1 at every index; so the
  hypothesis gives the three element statements at every index.

  For an extended real x, |x| is max x (−x), and the word 0x7F800000 is +∞. At x = +∞ and at x = −∞ the maximum is +∞,
  which is not below +∞; so |x| < +∞ leaves only the case that x is a real number.

  A 32-bit word w with 0 ≤ w read signed has its top bit clear, so it reads the same signed and unsigned; with
  w < 1000 read signed it is then below 1000 read unsigned.
-/
import proofs.«402703_j25417616458229_3_alg».proof.Pre_finite_inputs
import proofs.«402703_j25417616458229_3_alg».proof.Proof.Spec
import Idealize.ShloMosaic.Lib.ReduceAll
import Idealize.ShloMosaic.Lib.StableHlo.Predicate
import Idealize.ShloMosaic.Lib.ValueIdx

noncomputable section

namespace Cert.SupCon

open Idealize.ShloMosaic Idealize.ShloMosaic.ValueIdx

/-- An extended real whose absolute value max x (−x) is strictly below +∞ (the word 0x7F800000) is a real number:
    at +∞ and at −∞ the absolute value is +∞ itself. -/
theorem real_of_abs_lt_inf (x : Ideal .f32)
    (h : FloatOps.cmpf (F := Ideal) .olt (FloatOps.hostAbsf x) (FloatOps.ofBits (F := Ideal) .f32 0x7F800000#32) = 1#1) :
    ∃ r : ℝ, x = (r : EReal) := by
  -- the word 0x7F800000 is +∞
  have htop : Ideal.ofBits .f32 0x7F800000#32 = ⊤ := by simp [Ideal.ofBits, Ideal.ieee]
  -- the comparison is the strict order of the extended reals, the absolute value is max x (−x)
  change Ideal.cmp .olt (max (x : EReal) (-(x : EReal))) (Ideal.ofBits .f32 0x7F800000#32) = 1#1 at h
  rw [htop] at h
  unfold Ideal.cmp at h
  induction x using EReal.rec with
  | bot => simp at h          -- max ⊥ ⊤ = ⊤, and ⊤ < ⊤ is false
  | coe r => exact ⟨r, rfl⟩
  | top => simp at h          -- max ⊤ ⊥ = ⊤, and ⊤ < ⊤ is false

/-- A 32-bit word that is at least 0 and below 1000, both read signed, is below 1000 read unsigned. -/
theorem toNat_lt_of_signed_range (w : BitVec 32) (h0 : IntOp.cmpi .sge w 0#32 = 1#1)
    (h1 : IntOp.cmpi .slt w 1000#32 = 1#1) : w.toNat < 1000 := by
  -- the two compares say 0 ≤ w and w < 1000 of the signed readings
  rw [IntOp.cmpi_sge] at h0
  rw [IntOp.cmpi_slt] at h1
  have e0 : (0#32 : BitVec 32).toInt = 0 := by decide
  have e1 : (1000#32 : BitVec 32).toInt = 1000 := by decide
  rw [e0] at h0
  rw [e1] at h1
  have hw := w.isLt
  -- the signed reading is the unsigned one below 2³¹ and the unsigned one less 2³² from there on; the second is negative
  rw [BitVec.toInt_eq_toNat_cond] at h0 h1
  split at h0 <;> omega

/-- What the precondition says: every feature and every centre entry is a real number, and every label word is below 1000. -/
theorem pre_facts [Cert.Pre_finite_inputs.Facts]
    (x0 : FVec Ideal SFeat .f32) (x1 : IVec SLab 32) (x2 : FVec Ideal SCen .f32)
    (h : Cert.Pre_finite_inputs.fn (F := Ideal) x0 x1 x2 = fun _ => 1#1) :
    (∀ i, ∃ r : ℝ, x0 i = (r : EReal)) ∧ (∀ i, ∃ r : ℝ, x2 i = (r : EReal)) ∧ (∀ b : Fin 16384, (x1 (ix1 b)).toNat < 1000) := by
  -- the scalar shape has exactly one index
  haveI : Subsingleton Cert.Pre_finite_inputs.S_.Idx := ⟨fun a b => funext fun d => d.elim0⟩
  -- the precondition's one bit, as the "and" of three bits, each an "and" over a whole array
  have e := congrFun h ValueIdx.ix0
  dsimp only [Cert.Pre_finite_inputs.fn] at e
  simp only [andi] at e
  rw [IntOp.andi_eq_one, IntOp.andi_eq_one] at e
  obtain ⟨⟨hf, hc⟩, hl⟩ := e
  refine ⟨fun i => ?_, fun i => ?_, fun b => ?_⟩
  · -- |x0 i| < +∞ at the index i
    exact real_of_abs_lt_inf (x0 i) (Host.reduce_andi_all _ _ _ _ _ hf i)
  · -- |x2 i| < +∞ at the index i
    exact real_of_abs_lt_inf (x2 i) (Host.reduce_andi_all _ _ _ _ _ hc i)
  · -- 0 ≤ label b and label b < 1000, read signed, at the sample b
    obtain ⟨h0, h1⟩ := IntOp.andi_eq_one.1 (Host.reduce_andi_all _ _ _ _ _ hl (ix1 b))
    exact toNat_lt_of_signed_range (x1 (ix1 b)) h0 h1

end Cert.SupCon

end
-- ==== Proof.RefValue.lean ====
/-
  The reference program's result is the specification's loss.

  The reference's run is read one operation at a time, each stage at an index from its operands at an index:
  * the column norm is the floored norm of the specification, so the normalised centre is the specification's;
  * the contraction of a feature row with a normalised column is the logit;
  * the row reduction by the maximum, from the word of −∞, is the fold of the maximum from ⊥ over the row's 1000
    coordinates, and the further maximum with −∞ changes nothing;
  * subtracting it, exponentiating, summing over the row from the zero word, taking the logarithm and subtracting again
    is the log-softmax written with the row maximum subtracted;
  * a label word below 1000 is not negative read signed, so it is not wrapped; it passes the range test 0 ≤ w ≤ 999;
    the gather along the class axis, whose start index is clamped into [0, 999], reads the class w itself;
  * negating, summing over the 16384 samples from the zero word and dividing by the printed count is the loss.
-/
import proofs.«402703_j25417616458229_3_alg».proof.Proof.RefRead
import proofs.«402703_j25417616458229_3_alg».proof.Proof.Spec
import Idealize.ShloMosaic.PureOps.Reduce
import Idealize.ShloMosaic.PureOps.Ideal.Laws
import Idealize.ShloMosaic.Lib.Affine
import Idealize.ShloMosaic.Lib.ValueIdx
import Idealize.ShloMosaic.Lib.ValueIdxRank1

noncomputable section

namespace Cert.SupCon

open Idealize.ShloMosaic Idealize.ShloMosaic.ValueIdx
open Cert.ReferenceIdeal Cert.ReferenceIdeal.Gen Cert.ReferenceIdeal.ReadP

/-! ## The normalised centre -/

/-- The norm stage, read at column j, sums over the rows d of column j. -/
theorem idx_norm (k : Fin 512) (j : Fin 1000) (d : Fin 512) :
    idx_main_call0_v1 (idx_main_call0_v2 (idx_main_v3 (ix2 k j))) d = ix2 d j :=
  funext fun a => Fin.ext (by match a with | ⟨0, _⟩ => rfl | ⟨1, _⟩ => rfl)

/-- The floored column norm, broadcast over the rows, is the specification's. -/
theorem ref_colNorm (x2 : FVec Ideal SCen .f32) (k : Fin 512) (j : Fin 1000) :
    val_main_v3 (F := Ideal) x2 (ix2 k j) = colNorm x2 j := by
  rw [val_main_v3_apply, val_main_v2_apply, val_main_v0_apply, val_main_call0_v2_apply, val_main_call0_v1_apply,
    val_main_v1_apply, val_main_cst_apply, val_main_call0_cst_apply]
  simp only [val_main_call0_v0_apply, idx_norm, Ideal.maximumf_def, Ideal.hostUnary_sqrt_def, Ideal.ofBits_def,
    Ideal.mulf_def, Ideal.ofBits_zero_f32, zero_add]
  rfl

/-- The reference's normalised centre, read at an entry, is the specification's. -/
theorem ref_cmat (x2 : FVec Ideal SCen .f32) (k : Fin 512) (j : Fin 1000) :
    Cert.ReferenceIdeal.ReadP.val_main_v4 (F := Ideal) x2 (ix2 k j) = cmat x2 k j := by
  rw [val_main_v4_apply, ref_colNorm]
  rfl

/-! ## The logits -/

/-- The contraction at (b, j) is the logit of sample b against class j. -/
theorem ref_logit (x0 : FVec Ideal SFeat .f32) (x2 : FVec Ideal SCen .f32) (b : Fin 16384) (j : Fin 1000) :
    val_main_v5 (F := Ideal) x0 x2 (ix2 b j) = logit x0 x2 b j := by
  rw [val_main_v5_apply]
  show _ = ∑ k : Fin 512, x0 (ix2 b k) * cmat x2 k j
  refine Finset.sum_congr rfl fun k _ => ?_
  have el : lidx_main_v5 (ix2 b j) k = ix2 b k :=
    funext fun a => Fin.ext (by match a with | ⟨0, _⟩ => rfl | ⟨1, _⟩ => rfl)
  have er : ridx_main_v5 (ix2 b j) k = ix2 k j :=
    funext fun a => Fin.ext (by match a with | ⟨0, _⟩ => rfl | ⟨1, _⟩ => rfl)
  rw [el, er, ref_cmat]

/-! ## The row maximum -/

/-- The word 0xFF800000 is −∞. -/
theorem bot_word : Ideal.ofBits .f32 0xFF800000#32 = (⊥ : EReal) := by simp [Ideal.ofBits, Ideal.ieee]

/-- The sample index b with the class k put back on axis 1 is (b, k). -/
theorem lift_row (h : S16384x1000.Reduces [1] S16384) (b : Fin 16384) (k : Fin (S16384x1000.size 1)) :
    h.lift (ix1 b) k = ix2 b (⟨k.val, k.isLt⟩ : Fin 1000) := by
  funext c; apply Fin.ext
  match c with
  | ⟨0, _⟩ => rfl
  | ⟨1, _⟩ => rfl

/-- The row reduction by the maximum from −∞ is the fold of the maximum from ⊥ over the row's logits. -/
theorem ref_rowMax0 (x0 : FVec Ideal SFeat .f32) (x2 : FVec Ideal SCen .f32) (b : Fin 16384) :
    val_main_call1_v0 (F := Ideal) x0 x2 (ix1 b) = rowMax (logit x0 x2 b) := by
  have hred : S16384x1000.Reduces [1] S16384 := by decide
  unfold val_main_call1_v0
  rw [Host.reduce_eq_fold_single FloatOps.maximumf _ _ reducesTo_S16384x1000_S16384_d1 hred h_S_, val_main_call1_cst_apply]
  have hf : (val_main_v5 (F := Ideal) x0 x2 ∘ hred.lift (ix1 b)) = logit x0 x2 b :=
    funext fun k => (congrArg (val_main_v5 (F := Ideal) x0 x2) (lift_row hred b k)).trans (ref_logit x0 x2 b _)
  rw [hf]
  show Finset.fold max (Ideal.ofBits .f32 0xFF800000#32) (logit x0 x2 b) Finset.univ = _
  rw [bot_word]; rfl

/-- The further maximum with a broadcast −∞ changes nothing. -/
theorem ref_rowMax (x0 : FVec Ideal SFeat .f32) (x2 : FVec Ideal SCen .f32) (b : Fin 16384) :
    val_main_call1_v2 (F := Ideal) x0 x2 (ix1 b) = rowMax (logit x0 x2 b) := by
  rw [val_main_call1_v2_apply, val_main_call1_v1_apply, val_main_call1_cst_0_apply, ref_rowMax0]
  simp only [Ideal.maximumf_def, Ideal.ofBits_def, bot_word]
  exact max_eq_right bot_le

/-! ## The log-softmax -/

/-- The shifted logit. -/
theorem ref_shift (x0 : FVec Ideal SFeat .f32) (x2 : FVec Ideal SCen .f32) (b : Fin 16384) (j : Fin 1000) :
    val_main_call1_v5 (F := Ideal) x0 x2 (ix2 b j) = logit x0 x2 b j - rowMax (logit x0 x2 b) := by
  have e : idx_main_call1_v3 (idx_main_call1_v4 (ix2 b j)) = ix1 b :=
    funext fun a => Fin.ext (by match a with | ⟨0, _⟩ => rfl)
  rw [val_main_call1_v5_apply, val_main_call1_v4_apply, val_main_call1_v3_apply, e, ref_rowMax, ref_logit]
  rfl

/-- The row's sum of the exponentials of the shifted logits. -/
theorem ref_rowSum (x0 : FVec Ideal SFeat .f32) (x2 : FVec Ideal SCen .f32) (b : Fin 16384) :
    val_main_call1_v7 (F := Ideal) x0 x2 (ix1 b) = rowSum (logit x0 x2 b) := by
  have e : ∀ k : Fin 1000, idx_main_call1_v7 (ix1 b) k = ix2 b k := fun k =>
    funext fun a => Fin.ext (by match a with | ⟨0, _⟩ => rfl | ⟨1, _⟩ => rfl)
  rw [val_main_call1_v7_apply, val_main_call1_cst_1_apply]
  simp only [e, val_main_call1_v6_apply, ref_shift, Ideal.hostUnary_exp_def, Ideal.ofBits_def, Ideal.ofBits_zero_f32,
    zero_add]
  rfl

/-- The log-softmax entry, with the row maximum subtracted before the exponential. -/
theorem ref_logSoftmax (x0 : FVec Ideal SFeat .f32) (x2 : FVec Ideal SCen .f32) (b : Fin 16384) (j : Fin 1000) :
    val_main_v6 (F := Ideal) x0 x2 (ix2 b j)
      = (logit x0 x2 b j - rowMax (logit x0 x2 b)) - Ideal.log (rowSum (logit x0 x2 b)) := by
  have e : idx_main_call1_v8 (idx_main_call1_v10 (ix2 b j)) = ix1 b :=
    funext fun a => Fin.ext (by match a with | ⟨0, _⟩ => rfl)
  rw [val_main_v6_apply, ref_shift, val_main_call1_v10_apply, val_main_call1_v9_apply, val_main_call1_v8_apply, e,
    ref_rowSum]
  rfl

/-! ## A label word below 1000 -/

/-- Below 1000 a word reads the same signed and unsigned. -/
theorem toInt_of_small (w : BitVec 32) (hw : w.toNat < 1000) : w.toInt = (w.toNat : Int) := by
  rw [BitVec.toInt_eq_toNat_cond]; split <;> omega

/-- It is not negative … -/
theorem slt_zero_of_small (w : BitVec 32) (hw : w.toNat < 1000) : IntOp.cmpi .slt w 0#32 = 0#1 := by
  apply eq_zero_of_ne_one
  have e0 : (0#32 : BitVec 32).toInt = 0 := by decide
  rw [IntOp.cmpi_slt, toInt_of_small w hw, e0]; omega

/-- … so it is at least 0 … -/
theorem sge_zero_of_small (w : BitVec 32) (hw : w.toNat < 1000) : IntOp.cmpi .sge w 0#32 = 1#1 := by
  have e0 : (0#32 : BitVec 32).toInt = 0 := by decide
  rw [IntOp.cmpi_sge, toInt_of_small w hw, e0]; omega

/-- … and it is at most 999. -/
theorem sle_999_of_small (w : BitVec 32) (hw : w.toNat < 1000) : IntOp.cmpi .sle w 999#32 = 1#1 := by
  have e9 : (999#32 : BitVec 32).toInt = 999 := by decide
  rw [IntOp.cmpi_sle, toInt_of_small w hw, e9]; omega

/-! ## Taking the label's entry -/

/-- The wrap of negative labels leaves a label word below 1000 as it is. -/
theorem ref_wrapped (x1 : IVec SLab 32) (hlab : ∀ b : Fin 16384, (x1 (ix1 b)).toNat < 1000) (b : Fin 16384) (c : Fin 1) :
    val_main_call2_v4 (F := Ideal) x1 (ix2 b c) = x1 (ix1 b) := by
  have e : idx_main_v7 (ix2 b c) = ix1 b := funext fun a => Fin.ext (by match a with | ⟨0, _⟩ => rfl)
  rw [val_main_call2_v4_apply, val_main_call2_v1_apply, val_main_v7_apply, e, val_main_call2_v0_apply,
    val_main_call2_c_apply, slt_zero_of_small _ (hlab b), select_zero]

/-- The start index of sample b is its label word. -/
theorem ref_start (x1 : IVec SLab 32) (hlab : ∀ b : Fin 16384, (x1 (ix1 b)).toNat < 1000) (b : Fin 16384) (c d : Fin 1) :
    val_main_call2_v5 (F := Ideal) x1 (ix3 b c d) = x1 (ix1 b) := by
  have e : idx_main_call2_v5 (ix3 b c d) = ix2 b (0 : Fin 1) := funext fun a => Fin.ext (by
    match a with
    | ⟨0, _⟩ =>
      show ((b.val * 1 + c.val) * 1 + d.val) / 1 = b.val
      have := c.isLt; have := d.isLt; omega
    | ⟨1, _⟩ => rfl)
  rw [val_main_call2_v5_apply, e, ref_wrapped x1 hlab]

/-- Every start index passes the range test 0 ≤ w ≤ 999. -/
theorem ref_inRange (x1 : IVec SLab 32) (hlab : ∀ b : Fin 16384, (x1 (ix1 b)).toNat < 1000) (b : Fin 16384) (c d : Fin 1) :
    val_main_call2_v11 (F := Ideal) x1 (ix3 b c d) = 1#1 := by
  rw [val_main_call2_v11_apply, val_main_call2_v7_apply, val_main_call2_v10_apply, ref_start x1 hlab,
    val_main_call2_v6_apply, val_main_call2_c_2_apply, val_main_call2_v9_apply, val_main_call2_v8_apply,
    val_main_call2_c_1_apply, sge_zero_of_small _ (hlab b), sle_999_of_small _ (hlab b)]
  decide

/-- So the reduction of the test by "and" over the axis of extent one is 1. -/
theorem ref_valid (x1 : IVec SLab 32) (hlab : ∀ b : Fin 16384, (x1 (ix1 b)).toNat < 1000) (b : Fin 16384) :
    val_main_call2_v12 (F := Ideal) x1 (ix2 b (0 : Fin 1)) = 1#1 := by
  have hall : val_main_call2_v11 (F := Ideal) x1 = fun _ => 1#1 := funext fun i => by
    obtain ⟨p, q, r, rfl⟩ : ∃ (p : Fin 16384) (q r : Fin 1), i = ix3 p q r := ⟨i 0, i 1, i 2, eq_ix3 i⟩
    exact ref_inRange x1 hlab p q r
  have hred : S16384x1x1.Reduces [2] S16384x1 := by decide
  unfold val_main_call2_v12
  rw [hall, Host.reduce_eq_fold_single IntOp.andi _ _ reducesTo_S16384x1x1_S16384x1_d2 hred h_S_, val_main_call2_c_3_apply]
  show Finset.fold IntOp.andi 1#1 (fun _ => 1#1) (Finset.univ : Finset (Fin 1)) = 1#1
  rw [Finset.univ_unique, Finset.fold_singleton]; decide

/-- On the sample axis the gather reads the sample itself: the axis is a batching one. -/
theorem gather_axis0 (idx : IVec S16384x1x1 32) (b : Fin 16384) (c : Fin 1) :
    (gather_S16384x1000_S16384x1x1_S16384x1_n_1_0_0_1_2_11.operandIdx (ix2 b c) idx 0).val = b.val := by
  show gather_S16384x1000_S16384x1x1_S16384x1_n_1_0_0_1_2_11.start (ix2 b c) idx 0 + gather_S16384x1000_S16384x1x1_S16384x1_n_1_0_0_1_2_11.batchCoord (ix2 b c) 0 + gather_S16384x1000_S16384x1x1_S16384x1_n_1_0_0_1_2_11.offCoord (ix2 b c) 0 = b.val
  rw [GatherDims.start_batching _ (ix2 b c) idx 0 (by decide), GatherDims.offCoord_eq_zero _ (ix2 b c) 0 (by decide)]
  unfold GatherDims.batchCoord
  rw [dif_pos (show (0 : Fin S16384x1000.rank) ∈ gather_S16384x1000_S16384x1x1_S16384x1_n_1_0_0_1_2_11.operandBatchingDims by decide)]
  simp only [Nat.zero_add, Nat.add_zero]
  rfl

/-- On the class axis it reads the start index, read signed and clamped into [0, 999]. -/
theorem gather_axis1 (idx : IVec S16384x1x1 32) (b : Fin 16384) (c : Fin 1) :
    (gather_S16384x1000_S16384x1x1_S16384x1_n_1_0_0_1_2_11.operandIdx (ix2 b c) idx 1).val = min (idx (ix3 b c (0 : Fin 1))).toInt.toNat 999 := by
  show gather_S16384x1000_S16384x1x1_S16384x1_n_1_0_0_1_2_11.start (ix2 b c) idx 1 + gather_S16384x1000_S16384x1x1_S16384x1_n_1_0_0_1_2_11.batchCoord (ix2 b c) 1 + gather_S16384x1000_S16384x1x1_S16384x1_n_1_0_0_1_2_11.offCoord (ix2 b c) 1 = _
  rw [GatherDims.batchCoord_eq_zero _ (ix2 b c) 1 (by decide), GatherDims.offCoord_eq_zero _ (ix2 b c) 1 (by decide)]
  simp only [Nat.add_zero]
  unfold GatherDims.start
  rw [dif_pos (show (1 : Fin S16384x1000.rank) ∈ gather_S16384x1000_S16384x1x1_S16384x1_n_1_0_0_1_2_11.startIndexMap by decide)]
  have hsi : gather_S16384x1000_S16384x1x1_S16384x1_n_1_0_0_1_2_11.siIdx (ix2 b c) ⟨List.idxOf (1 : Fin S16384x1000.rank) gather_S16384x1000_S16384x1x1_S16384x1_n_1_0_0_1_2_11.startIndexMap,
      List.idxOf_lt_length_iff.2 (by decide)⟩ = ix3 b c (0 : Fin 1) := by
    funext a; refine Fin.ext ?_
    match a with
    | ⟨0, _⟩ => rfl
    | ⟨1, _⟩ => rfl
    | ⟨2, _⟩ => rfl
  rw [hsi]
  rfl

/-- The gather reads the log-softmax of sample b at its label. -/
theorem ref_gather (x0 : FVec Ideal SFeat .f32) (x1 : IVec SLab 32) (x2 : FVec Ideal SCen .f32)
    (hlab : ∀ b : Fin 16384, (x1 (ix1 b)).toNat < 1000) (b : Fin 16384) :
    val_main_call2_v13 (F := Ideal) x0 x1 x2 (ix2 b (0 : Fin 1)) = val_main_v6 (F := Ideal) x0 x2 (ix2 b (label x1 b)) := by
  unfold val_main_call2_v13 Host.gather
  generalize val_main_v6 (F := Ideal) x0 x2 = y
  refine congrArg y (funext fun a => Fin.ext ?_)
  match a with
  | ⟨0, _⟩ => exact gather_axis0 _ b 0
  | ⟨1, _⟩ =>
    refine (gather_axis1 _ b 0).trans ?_
    rw [ref_start x1 hlab b 0 0, toInt_of_small _ (hlab b), Int.toNat_natCast]
    show min (x1 (ix1 b)).toNat 999 = (x1 (ix1 b)).toNat % 1000
    have := hlab b
    omega

/-- The selected entry: the range test holds, so it is the gathered one. -/
theorem ref_taken (x0 : FVec Ideal SFeat .f32) (x1 : IVec SLab 32) (x2 : FVec Ideal SCen .f32)
    (hlab : ∀ b : Fin 16384, (x1 (ix1 b)).toNat < 1000) (b : Fin 16384) :
    val_main_v8 (F := Ideal) x0 x1 x2 (ix2 b (0 : Fin 1)) = val_main_v6 (F := Ideal) x0 x2 (ix2 b (label x1 b)) := by
  rw [val_main_v8_apply, ref_valid x1 hlab b, select_one, ref_gather x0 x1 x2 hlab b]

/-! ## The loss -/

/-- The negated entry of sample b is its value as the reference writes it. -/
theorem ref_sample (x0 : FVec Ideal SFeat .f32) (x1 : IVec SLab 32) (x2 : FVec Ideal SCen .f32)
    (hlab : ∀ b : Fin 16384, (x1 (ix1 b)).toNat < 1000) (b : Fin 16384) :
    val_main_v10 (F := Ideal) x0 x1 x2 (ix1 b) = refRow (logit x0 x2 b) (label x1 b) := by
  have e : idx_main_v9 (ix1 b) = ix2 b (0 : Fin 1) := funext fun a => Fin.ext (by
    match a with
    | ⟨0, _⟩ => exact Nat.div_one _
    | ⟨1, _⟩ => rfl)
  rw [val_main_v10_apply, val_main_v9_apply, e, ref_taken x0 x1 x2 hlab b, ref_logSoftmax]
  rfl

/-- With every label word below 1000, the reference's result is the loss. -/
theorem ref_value (x0 : FVec Ideal SFeat .f32) (x1 : IVec SLab 32) (x2 : FVec Ideal SCen .f32)
    (hlab : ∀ b : Fin 16384, (x1 (ix1 b)).toNat < 1000) :
    Cert.ReferenceIdeal.ReadP.val_main_v12 (F := Ideal) x0 x1 x2 = fun _ => loss x0 x1 x2 := by
  funext i
  rw [val_main_v12_apply, val_main_v11_apply, val_main_cst_1_apply, val_main_cst_0_apply]
  simp only [Ideal.hostDivf_def, Ideal.ofBits_def, Ideal.ofBits_zero_f32, zero_add]
  refine congrArg (fun s => Ideal.div s (Ideal.ofBits .f32 0x46800000#32)) ?_
  refine ((Equiv.sum_comp (idxEquiv1 (n := 16384)).symm (val_main_v10 (F := Ideal) x0 x1 x2)).symm).trans ?_
  exact Finset.sum_congr rfl fun b _ => ref_sample x0 x1 x2 hlab b

end Cert.SupCon

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.RowMath.lean ====
/-
  Row mathematics on the extended reals, free of any program.

  * Padding a row of 1000 entries to 1024 lanes with the bottom element leaves its maximum unchanged: the bottom
    element is the unit of the maximum.
  * On a row of real logits z with maximum M, the value (M + log Σ exp(z - M)) - z_y, with the exponential sum taken
    over the 1024 padded lanes and z_y picked out by a one-lane selection sum, equals -((z_y - M) - log Σ exp(z - M))
    with the sum over the 1000 entries. The 24 padded lanes contribute exp ⊥ = 0; the selection sum has one nonzero
    lane; M is a real; the exponential sum is a positive real, so its logarithm is the real logarithm; what is left
    is an identity of real numbers.
-/
import proofs.«402703_j25417616458229_3_alg».proof.Proof.Spec
import proofs.«402703_j25417616458229_3_alg».proof.Proof.LibPlainMatmul
import Mathlib.Algebra.BigOperators.Fin
import Mathlib.Algebra.Order.BigOperators.Group.Finset
import Mathlib.Data.Finset.Fold
import Mathlib.Data.EReal.Basic
import Mathlib.Data.EReal.Operations
import Mathlib.Tactic.Ring

noncomputable section

namespace Cert.SupCon

open Idealize.ShloMosaic

/-- Lane j of the 1024, for a class j of the 1000. -/
def lane (j : Fin 1000) : Fin 1024 := Fin.castLE (by norm_num) j

@[simp] theorem lane_val (j : Fin 1000) : (lane j).val = j.val := rfl

/-- A padded lane below 1000 holds the row's entry. -/
theorem padRow_of_lt (z : Fin 1000 → EReal) (j : Fin 1024) (h : j.val < 1000) : padRow z j = z ⟨j.val, h⟩ := by
  unfold padRow; exact dif_pos h

/-- A padded lane from 1000 on holds the bottom element. -/
theorem padRow_of_ge (z : Fin 1000 → EReal) (j : Fin 1024) (h : ¬ j.val < 1000) : padRow z j = ⊥ := by
  unfold padRow; exact dif_neg h

/-- The lane of class j holds z j. -/
theorem padRow_lane (z : Fin 1000 → EReal) (j : Fin 1000) : padRow z (lane j) = z j :=
  padRow_of_lt z (lane j) j.isLt

/-- Padding with the bottom element does not change the maximum. -/
theorem padMax_eq_rowMax (z : Fin 1000 → EReal) : padMax z = rowMax z := by
  apply le_antisymm
  · -- every padded lane is an entry of the row or the bottom element
    rw [padMax, Finset.fold_max_le]
    refine ⟨bot_le, fun j _ => ?_⟩
    by_cases h : j.val < 1000
    · rw [padRow_of_lt z j h, rowMax, Finset.le_fold_max]
      exact Or.inr ⟨_, Finset.mem_univ _, le_rfl⟩
    · rw [padRow_of_ge z j h]; exact bot_le
  · -- every entry of the row sits on a padded lane
    rw [rowMax, Finset.fold_max_le]
    refine ⟨bot_le, fun j _ => ?_⟩
    rw [padMax, Finset.le_fold_max]
    exact Or.inr ⟨lane j, Finset.mem_univ _, (padRow_lane z j).ge⟩

/-- A sum over the 1024 lanes of a function vanishing from lane 1000 on is the sum over the lanes of the 1000 classes. -/
theorem sum_lanes (f : Fin 1024 → EReal) (hf : ∀ j : Fin 1024, ¬ j.val < 1000 → f j = 0) :
    ∑ j : Fin 1024, f j = ∑ j : Fin 1000, f (lane j) := by
  have h : ∑ j : Fin (1000 + 24), f j = ∑ j : Fin 1000, f (Fin.castAdd 24 j) :=
    Fin.sum_trunc (a := 1000) (b := 24) f (fun j => hf _ (by rw [Fin.coe_natAdd]; omega))
  exact h

/-- On a row of real logits the kernel's spelling of a sample's value is the reference's. -/
theorem kerRow_eq_refRow (z : Fin 1000 → EReal) (hz : ∀ j, ∃ r : ℝ, z j = (r : EReal)) (y : Fin 1000) :
    kerRow z y = refRow z y := by
  choose r hr using hz
  -- the row maximum is a real M: it is below ⊤ since every entry is, and above ⊥ since the entry at y is
  have hMtop : rowMax z ≠ ⊤ := by
    apply ne_of_lt
    rw [rowMax, Finset.fold_max_lt]
    exact ⟨bot_lt_top, fun j _ => by rw [hr j]; exact EReal.coe_lt_top _⟩
  have hMbot : rowMax z ≠ ⊥ := by
    apply ne_of_gt
    rw [rowMax, Finset.lt_fold_max]
    exact Or.inr ⟨y, Finset.mem_univ _, by rw [hr y]; exact EReal.bot_lt_coe _⟩
  obtain ⟨M, hM⟩ : ∃ M : ℝ, rowMax z = (M : EReal) :=
    ⟨(rowMax z).toReal, (EReal.coe_toReal hMtop hMbot).symm⟩
  -- each shifted exponential is the real exponential
  have hexp : ∀ j : Fin 1000, Ideal.exp (z j - rowMax z) = ((Real.exp (r j - M) : ℝ) : EReal) := by
    intro j; rw [hr j, hM, ← EReal.coe_sub, Ideal.exp_coe]
  -- so the row's exponential sum is a real S, and S is positive
  have hS : rowSum z = ((∑ j : Fin 1000, Real.exp (r j - M) : ℝ) : EReal) := by
    rw [rowSum, PlainMatmul.coe_sum]; exact Finset.sum_congr rfl (fun j _ => hexp j)
  have hSpos : 0 < ∑ j : Fin 1000, Real.exp (r j - M) :=
    Finset.sum_pos (fun j _ => Real.exp_pos _) ⟨y, Finset.mem_univ _⟩
  -- the padded exponential sum is the row's: a padded lane gives exp (⊥ - M) = exp ⊥ = 0
  have hpad : ∑ j : Fin 1024, Ideal.exp (padRow z j - padMax z) = rowSum z := by
    refine (sum_lanes (fun j => Ideal.exp (padRow z j - padMax z))
      (fun j hj => by rw [padRow_of_ge z j hj, EReal.bot_sub, Ideal.exp_bot])).trans ?_
    rw [rowSum]
    refine Finset.sum_congr rfl fun j _ => ?_
    show Ideal.exp (padRow z (lane j) - padMax z) = _
    rw [padRow_lane, padMax_eq_rowMax]
  -- the one-lane selection sum is the logit at the label
  have hsel : ∑ j : Fin 1024, (if j.val = y.val then padRow z j else 0) = z y := by
    rw [Finset.sum_eq_single (lane y)]
    · rw [if_pos (lane_val y), padRow_lane]
    · intro b _ hb
      rw [if_neg]
      intro h; exact hb (Fin.ext h)
    · intro h; exact absurd (Finset.mem_univ _) h
  -- what is left is an identity of reals
  rw [kerRow, refRow, hpad, hsel, padMax_eq_rowMax, hS, hM, hr y, Ideal.log_coe, if_neg (not_le.mpr hSpos)]
  rw [← EReal.coe_add, ← EReal.coe_sub, ← EReal.coe_sub, ← EReal.coe_sub, ← EReal.coe_neg]
  congr 1; ring

end Cert.SupCon

end
-- ==== Proof.KerHost.lean ====
/-
  What the idealized kernel's region finds in the two arrays its host prologue computes.

  Window 1 stages the centre matrix after the prologue: every column divided by its floored Euclidean norm — the
  same chain of host operations the reference applies, so it is the reference's term — then padded from 1000 to
  1024 columns with zeros and changed of format, which at the ideal values is the identity. Read at a column below
  1000 it is the normalised centre's entry. Window 2 stages the labels, broadcast from [16384] to [16384, 1].
-/
import proofs.«402703_j25417616458229_3_alg».proof.Proof.Gen.KernelIdeal.Frame
import proofs.«402703_j25417616458229_3_alg».proof.Proof.RefRead
import proofs.«402703_j25417616458229_3_alg».proof.Proof.Spec
import proofs.«402703_j25417616458229_3_alg».proof.Proof.RowMath
import Idealize.ShloMosaic.Lib.KernelVsHost
import Idealize.ShloMosaic.Lib.Pipeline.Value
import Idealize.ShloMosaic.Lib.ValueIdx
import Idealize.ShloMosaic.Lib.StableHlo.Run

noncomputable section

namespace Cert.SupCon.KerHost

open Idealize.ShloMosaic Idealize.ShloMosaic.TcCoe Idealize.ShloMosaic.ValueIdx Idealize.SL.Sem Idealize.ShloMosaic.StableHlo
open Cert.KernelIdeal Cert.KernelIdeal.Gen Cert.SupCon

variable (m : (ℓ : Loc nD τ sig) → Buf (Elt Ideal) ℓ)

/-- Carrying contents to a typed reference's buffer and back is the identity. -/
theorem ofBuf_toBuf {T : BufTy} (x : TRef sig T) (v : T.Contents (Elt Ideal)) : x.ofBuf (x.toBuf v) = v := by
  obtain ⟨r, h, _, _⟩ := x; subst h; rfl

/-- The kernel's host prologue on the centre matrix, as one term of it: square, sum each column from zero, square
    root, floor at the printed epsilon, divide. -/
def normed (x2 : FVec Ideal S512x1000 .f32) : FVec Ideal S512x1000 .f32 :=
  Host.divf (F := Ideal) x2 (broadcastInDim S512x1000 ![0, 1] bcast_S1x1000_S512x1000_0_1
    (maximumf (F := Ideal)
      (Host.sqrt (F := Ideal) (broadcastInDim S1x1000 ![1] bcast_S1000_S1x1000_1
        (Host.reduceAdd (F := Ideal) (mulf (F := Ideal) x2 x2) (constant (F := Ideal) S_ .f32 0x00000000#32) reducesTo_S512x1000_S1000_d0 h_S_)))
      (broadcastInDim S1x1000 ![] bcast_S_S1x1000 (constant (F := Ideal) S_ .f32 0x2B8CBCCC#32))))

/-- It is the reference's own term for the normalised centre: the same operations in the same order. -/
theorem normed_eq (x2 : FVec Ideal S512x1000 .f32) :
    normed x2 = Cert.ReferenceIdeal.ReadP.val_main_v4 (F := Ideal) x2 := rfl

/-- Window 1's array as the region finds it: the normalised centre, padded with the converted integer zero, changed
    of format. -/
theorem V_v6 (c : Dev nD) : (V m c main_v6 : S512x1024.Idx → EReal) =
    truncf (F := Ideal) .bf16 (pad S512x1024 ![0, 0] ![0, 24] ![0, 0] (normed (m ((c : Thread nD τ).loc main_arg2)))
      (sitofp (F := Ideal) .f32 (constantI S_ 32 0#32)) pads_S512x1000_S512x1024_000_0240 h_S_) bitsLt_bf16_f32 := by
  dsimp only [V, V0]
  simp only [hostOps0, hostOps0_1, hostOps0_2, hostOps0_3, List.flatten_cons, List.flatten_nil, List.append_nil, List.cons_append,
    List.nil_append]
  after_results
  simp only [ofBuf_toBuf]
  simp only [TRef.ofBuf, TRef.toBuf, cast_eq]
  rfl

/-- Read at row k and a column below 1000: the reference's normalised centre at (k, j). -/
theorem V_v6_at (c : Dev nD) (k : Fin 512) (j : Fin 1000) :
    (V m c main_v6 : S512x1024.Idx → EReal) (ix2 k (lane j))
      = Cert.ReferenceIdeal.ReadP.val_main_v4 (F := Ideal) (m ((c : Thread nD τ).loc main_arg2)) (ix2 k j) := by
  rw [V_v6, ← normed_eq]
  show pad S512x1024 ![0, 0] ![0, 24] ![0, 0] (normed (m ((c : Thread nD τ).loc main_arg2)))
      (sitofp (F := Ideal) .f32 (constantI S_ 32 0#32)) pads_S512x1000_S512x1024_000_0240 h_S_ (ix2 k (lane j)) = _
  refine pad_apply_of_inside _ _ _ _ _ _ _ (ix2 k (lane j)) (ix2 k j) (fun a => ?_)
  match a with
  | ⟨0, _⟩ => show k.val = 0 + k.val * (0 + 1); omega
  | ⟨1, _⟩ => show (lane j).val = 0 + j.val * (0 + 1); rw [lane_val]; omega

/-- Window 2's array as the region finds it: the labels, one per row. -/
theorem V_v7 (c : Dev nD) : (V m c main_v7 : S16384x1.Idx → BitVec 32) =
    broadcastInDim S16384x1 ![0] bcast_S16384_S16384x1_0 (m ((c : Thread nD τ).loc main_arg1)) := by
  dsimp only [V, V0]
  simp only [hostOps0, hostOps0_1, hostOps0_2, hostOps0_3, List.flatten_cons, List.flatten_nil, List.append_nil, List.cons_append,
    List.nil_append]
  after_results

/-- Read at row b: sample b's label word. -/
theorem V_v7_at (c : Dev nD) (b : Fin 16384) :
    (V m c main_v7 : S16384x1.Idx → BitVec 32) (ix2 b (0 : Fin 1)) = (m ((c : Thread nD τ).loc main_arg1) : S16384.Idx → BitVec 32) (ix1 b) := by
  rw [V_v7]
  refine broadcastInDim_apply _ _ _ (ix2 b (0 : Fin 1)) (ix1 b) (fun a => ?_)
  match a with
  | ⟨0, _⟩ => rfl

end Cert.SupCon.KerHost

end
-- ==== Proof.KerPayload.lean ====
/-
  The idealized kernel's one stored value, read at row r of a grid point's block.

  The body, on a 1024×512 feature block A, a 512×1024 padded centre block B and a 1024×1 column of label words:
  the 1024×1024 block of products P(r, j) = Σ_k A(r, k) · B(k, j); the masked block m(r, j) = P(r, j) on the lanes
  j < 1000 and the bottom element on the 24 lanes from 1000 on; per row the maximum M_r of m over the lanes, the
  sum S_r = Σ_j exp (m(r, j) − M_r), and the one-lane selection sum T_r = Σ_j (m(r, j) where the lane's word is the
  row's label word, else 0); the stored column is (M_r + log S_r) − T_r.

  Each operation is read at explicit coordinates: the entrywise ones by unfolding; a vector of 1024 entries viewed as
  a column, and a column broadcast along the lanes, by their row-major positions; the lane counter as the lane's word;
  the reductions over the lanes as a sum, or a fold of max from the bottom element, over the lane coordinate; the
  product into the zero accumulator as the plain sum over the contracted coordinate. The word of a lane j < 1024 is
  below the word 1000 (signed) exactly when j < 1000, and equals the word of a class y < 1000 exactly when j = y, both
  numbers being far below 2³¹. With z the row's first 1000 products, row r of m is the padded row of z, and the
  stored value is the kernel's spelling of the sample's value at z and the label.
-/
import proofs.«402703_j25417616458229_3_alg».proof.Proof.Gen.KernelIdeal.Skeleton
import proofs.«402703_j25417616458229_3_alg».proof.Proof.Spec
import proofs.«402703_j25417616458229_3_alg».proof.Proof.RowMath
import proofs.«402703_j25417616458229_3_alg».proof.Proof.LibPlainMatmul
import Idealize.ShloMosaic.PureOps.Ideal.Laws
import Idealize.ShloMosaic.Lib.ValueIdx
import Idealize.ShloMosaic.Lib.Pipeline.Value
import Idealize.ShloMosaic.Lib.StableHlo.Predicate

noncomputable section

namespace Cert.SupCon

open Idealize.ShloMosaic Idealize.ShloMosaic.ValueIdx
open Cert.KernelIdeal Cert.KernelIdeal.Gen

/-- A vector of 1024 entries viewed as a column: the entry (r, 0) of the column is entry r of the vector. -/
theorem column_apply {α : Type} (v : S1024.Idx → α) (h : S1024.ShapeCasts S1024x1) (r : Fin 1024) :
    shapeCast S1024x1 v h (ix2 r 0) = v (ix1 r) := by
  refine shapeCast_apply v h (ix2 r 0) (ix1 r) ?_
  rw [Shape.rowMajor_val_one, Shape.rowMajor_val_two]
  show r.val = r.val * 1 + 0
  omega

/-- A column broadcast along the lanes: the entry (r, j) is the column's entry (r, 0). -/
theorem lanes_apply {α : Type} (v : S1024x1.Idx → α) (h : S1024x1.Broadcasts S1024x1024) (r j : Fin 1024) :
    broadcastTo S1024x1024 v h (ix2 r j) = v (ix2 r 0) := by
  refine broadcastTo_apply v h (ix2 r j) (ix2 r 0) (fun a => ?_)
  match a with
  | ⟨0, _⟩ => rfl
  | ⟨1, _⟩ => rfl

/-- The lane counter at (r, j) is the word j. -/
theorem laneIota_apply (h : S1024x1024.Iotas .tc 32 [1]) (r j : Fin 1024) :
    iota .tc S1024x1024 32 [1] h (ix2 r j) = BitVec.ofNat 32 j.val :=
  iota_single_apply .tc S1024x1024 32 1 h (ix2 r j)

/-- The index (r, k) is the row index r with the lane k put back. -/
theorem lift_eq (h : S1024x1024.Reduces [1] S1024) (r k : Fin 1024) : h.lift (ix1 r) k = ix2 r k := by
  funext a
  apply Fin.ext
  match a with
  | ⟨0, _⟩ => rfl
  | ⟨1, _⟩ => rfl

/-- A sum over the lanes, read at row r. -/
theorem laneSum_apply (src : FVec Ideal S1024x1024 .f32) (h : S1024x1024.Reduces [1] S1024)
    (hφ : FKind.Formats .f32) (hacc : (0x00000000#32 : BitVec 32) = FKind.add.neutral .f32 hφ) (r : Fin 1024) :
    multiReduction (F := Ideal) .add [1] S1024 src 0x00000000#32 h hφ hacc (ix1 r) = ∑ j : Fin 1024, src (ix2 r j) := by
  refine (Ideal.multiReduction_add_single src _ h hφ hacc (ix1 r)).trans ?_
  exact Finset.sum_congr rfl (fun k _ => congrArg src (lift_eq h r k))

/-- The maximum over the lanes, read at row r: the fold of max from the bottom element. -/
theorem laneMax_apply (src : FVec Ideal S1024x1024 .f32) (h : S1024x1024.Reduces [1] S1024)
    (hφ : FKind.Formats .f32) (hacc : (0xFF800000#32 : BitVec 32) = FKind.maximumf.neutral .f32 hφ) (r : Fin 1024) :
    multiReduction (F := Ideal) .maximumf [1] S1024 src 0xFF800000#32 h hφ hacc (ix1 r)
      = (Finset.univ : Finset (Fin 1024)).fold max ⊥ (fun j => src (ix2 r j)) := by
  refine (Ideal.multiReduction_maximumf_single src _ h hφ hacc (ix1 r)).trans ?_
  have hbot : FloatOps.ofBits (F := Ideal) .f32 0xFF800000#32 = (⊥ : EReal) := by
    simp [Ideal.ofBits, Ideal.ieee]
  rw [hbot]
  exact congrArg (fun f => (Finset.univ : Finset (Fin 1024)).fold max ⊥ f) (funext fun k => congrArg src (lift_eq h r k))

/-- The printed contraction record is the plain m×k by k×n one: the same six lists. -/
theorem dot_eq_plain : dot_S1024x512_S512x1024_S1024x1024_1_0_0_1_n_n = DotDims.plain 1024 512 1024 := rfl

/-- The product accumulated into zero, at the entry (r, j): the sum over the contracted coordinate. -/
theorem logits_apply (a : FVec Ideal S1024x512 .bf16) (b : FVec Ideal S512x1024 .bf16) (r j : Fin 1024) :
    matmul (F := Ideal) dot_S1024x512_S512x1024_S1024x1024_1_0_0_1_n_n none a b
        (constant (F := Ideal) S1024x1024 .f32 0x00000000#32) (ix2 r j)
      = ∑ k : Fin 512, a (ix2 r k) * b (ix2 k j) :=
  PlainMatmul.matmul_zero_apply_of_eq _ dot_eq_plain none a b r j

/-- The word of a lane is below the word 1000, read signed, exactly when the lane is below 1000. -/
theorem lane_lt_iff (j : Fin 1024) : IntOp.cmpi .slt (BitVec.ofNat 32 j.val) 1000#32 = 1#1 ↔ j.val < 1000 := by
  unfold IntOp.cmpi
  exact StableHlo.Predicate.slt_ofNat_iff j.val 1000 (by have := j.isLt; omega) (by norm_num)

/-- The word of a lane is the word of a class exactly when the lane is the class. -/
theorem lane_eq_iff (j : Fin 1024) (y : Fin 1000) :
    IntOp.cmpi .eq (BitVec.ofNat 32 j.val) (BitVec.ofNat 32 y.val) = 1#1 ↔ j.val = y.val := by
  rw [IntOp.cmpi_eq]
  constructor
  · intro h
    have e := congrArg BitVec.toNat h
    simp only [BitVec.toNat_ofNat] at e
    have hj := j.isLt
    have hy := y.isLt
    omega
  · intro h; rw [h]

/-- The constant the kernel puts on the padded lanes is the bottom element at the ideal values. -/
theorem negBig_eq : Named.named (F := Ideal) Cert.KernelIdeal.κ "neg_big" (φ := .f32) 0xF149F2CA#32 = (⊥ : EReal) :=
  IdealRules.named_const.ideal_named_scalar _ _ _ _ rfl

/-- The masked logits at (r, j): the padded row of the row's first 1000 logits. -/
theorem masked_apply (x0 : FVec Ideal S1024x512 .f32) (x1 : FVec Ideal S512x1024 .bf16)
    (r : Fin 1024) (z : Fin 1000 → EReal)
    (hz : ∀ j : Fin 1000, ∑ k : Fin 512, x0 (ix2 r k) * x1 (ix2 k (lane j)) = z j) (j : Fin 1024) :
    select (cmpi .slt (iota .tc S1024x1024 32 [1] iota_S1024x1024_d1_w32) (broadcast S1024x1024 1000#32))
        (matmul (F := Ideal) dot_S1024x512_S512x1024_S1024x1024_1_0_0_1_n_n none
          (truncf .bf16 x0 bitsLt_bf16_f32) (shapeCast S512x1024 x1 shapeCasts_S512x1024_S512x1024)
          (constant (F := Ideal) S1024x1024 .f32 0x00000000#32))
        (broadcast S1024x1024 (Named.named (F := Ideal) Cert.KernelIdeal.κ "neg_big" (φ := .f32) 0xF149F2CA#32)) (ix2 r j)
      = padRow z j := by
  show Scalar.select (IntOp.cmpi .slt (iota .tc S1024x1024 32 [1] iota_S1024x1024_d1_w32 (ix2 r j)) 1000#32)
      (matmul (F := Ideal) dot_S1024x512_S512x1024_S1024x1024_1_0_0_1_n_n none
          (truncf .bf16 x0 bitsLt_bf16_f32) (shapeCast S512x1024 x1 shapeCasts_S512x1024_S512x1024)
          (constant (F := Ideal) S1024x1024 .f32 0x00000000#32) (ix2 r j))
      (Named.named (F := Ideal) Cert.KernelIdeal.κ "neg_big" (φ := .f32) 0xF149F2CA#32) = padRow z j
  rw [laneIota_apply, logits_apply, shapeCast_self, negBig_eq]
  by_cases hj : j.val < 1000
  · rw [(lane_lt_iff j).2 hj, select_one, padRow_of_lt z j hj]
    have hl : lane ⟨j.val, hj⟩ = j := Fin.ext rfl
    have e := hz ⟨j.val, hj⟩
    rw [hl] at e
    exact e
  · rw [eq_zero_of_ne_one (mt (lane_lt_iff j).1 hj), select_zero, padRow_of_ge z j hj]

/-- A one-lane selection by equality of the lane's word with a class's word. -/
theorem pick_eq (j : Fin 1024) (y : Fin 1000) (a b : EReal) :
    Scalar.select (IntOp.cmpi .eq (BitVec.ofNat 32 j.val) (BitVec.ofNat 32 y.val)) a b = if j.val = y.val then a else b := by
  by_cases h : j.val = y.val
  · rw [(lane_eq_iff j y).2 h, select_one, if_pos h]
  · rw [eq_zero_of_ne_one (mt (lane_eq_iff j y).1 h), select_zero, if_neg h]

/-- The column of row maxima at (r, 0), for a block whose row r is p: the fold of max over p from the bottom element. -/
theorem maxCol_apply (m : FVec Ideal S1024x1024 .f32) (h : S1024x1024.Reduces [1] S1024)
    (hφ : FKind.Formats .f32) (hacc : (0xFF800000#32 : BitVec 32) = FKind.maximumf.neutral .f32 hφ)
    (hc : S1024.ShapeCasts S1024x1) (r : Fin 1024) (p : Fin 1024 → EReal) (hm : ∀ j : Fin 1024, m (ix2 r j) = p j) :
    shapeCast S1024x1 (multiReduction (F := Ideal) .maximumf [1] S1024 m 0xFF800000#32 h hφ hacc) hc (ix2 r 0)
      = (Finset.univ : Finset (Fin 1024)).fold max ⊥ p :=
  (column_apply _ hc r).trans ((laneMax_apply m h hφ hacc r).trans
    (congrArg (fun f => (Finset.univ : Finset (Fin 1024)).fold max ⊥ f) (funext hm)))

/-- The column of exponential sums at (r, 0): for a block whose row r is p and a column c whose entry (r, 0) is M,
    the sum over the lanes of exp (p j - M). -/
theorem expSumCol_apply (m : FVec Ideal S1024x1024 .f32) (c : FVec Ideal S1024x1 .f32)
    (hb : S1024x1.Broadcasts S1024x1024) (h : S1024x1024.Reduces [1] S1024)
    (hφ : FKind.Formats .f32) (hacc : (0x00000000#32 : BitVec 32) = FKind.add.neutral .f32 hφ)
    (hc : S1024.ShapeCasts S1024x1) (r : Fin 1024) (p : Fin 1024 → EReal) (M : EReal)
    (hm : ∀ j : Fin 1024, m (ix2 r j) = p j) (hM : c (ix2 r 0) = M) :
    shapeCast S1024x1 (multiReduction (F := Ideal) .add [1] S1024
        (exp (subf m (broadcastTo S1024x1024 c hb))) 0x00000000#32 h hφ hacc) hc (ix2 r 0)
      = ∑ j : Fin 1024, Ideal.exp (p j - M) := by
  refine (column_apply _ hc r).trans ((laneSum_apply _ h hφ hacc r).trans ?_)
  refine Finset.sum_congr rfl (fun j _ => ?_)
  show Ideal.exp (m (ix2 r j) - broadcastTo S1024x1024 c hb (ix2 r j)) = Ideal.exp (p j - M)
  rw [lanes_apply, hm, hM]

/-- The column of one-lane selection sums at (r, 0): for a block whose row r is p and labels whose entry (r, 0) is the
    word of the class y, the sum over the lanes of p j on the lane of y and zero elsewhere. -/
theorem pickCol_apply (m : FVec Ideal S1024x1024 .f32) (x2 : IVec S1024x1 32)
    (hi : S1024x1024.Iotas .tc 32 [1]) (hs : S1024x1.ShapeCasts S1024x1)
    (hb : S1024x1.Broadcasts S1024x1024) (h : S1024x1024.Reduces [1] S1024)
    (hφ : FKind.Formats .f32) (hacc : (0x00000000#32 : BitVec 32) = FKind.add.neutral .f32 hφ)
    (hc : S1024.ShapeCasts S1024x1) (r : Fin 1024) (p : Fin 1024 → EReal) (y : Fin 1000)
    (hm : ∀ j : Fin 1024, m (ix2 r j) = p j) (hy : x2 (ix2 r 0) = BitVec.ofNat 32 y.val) :
    shapeCast S1024x1 (multiReduction (F := Ideal) .add [1] S1024
        (select (cmpi .eq (iota .tc S1024x1024 32 [1] hi) (broadcastTo S1024x1024 (shapeCast S1024x1 x2 hs) hb))
          m (broadcast S1024x1024 (Scalar.ofBits (F := Ideal) .f32 0x00000000#32)))
        0x00000000#32 h hφ hacc) hc (ix2 r 0)
      = ∑ j : Fin 1024, (if j.val = y.val then p j else 0) := by
  refine (column_apply _ hc r).trans ((laneSum_apply _ h hφ hacc r).trans ?_)
  refine Finset.sum_congr rfl (fun j _ => ?_)
  show Scalar.select (IntOp.cmpi .eq (iota .tc S1024x1024 32 [1] hi (ix2 r j))
        (broadcastTo S1024x1024 (shapeCast S1024x1 x2 hs) hb (ix2 r j)))
      (m (ix2 r j)) (Ideal.ofBits .f32 0x00000000#32) = _
  rw [laneIota_apply, lanes_apply, shapeCast_self, hy, hm, Ideal.ofBits_zero_f32, pick_eq]

/-- The logarithm of a vector is taken entry by entry. -/
theorem log_apply {s : Shape} {φ : FTy} (a : FVec Ideal s φ) (i : s.Idx) : log a i = Ideal.log (a i) := rfl

/-- Row r of a grid point's stored block, read at the ideal values: with z the row's first 1000 logits (the products of
    row r of the feature block with the first 1000 columns of the padded centre block) and y the row's label, it is the
    kernel's spelling of the sample's value. -/
theorem pay_row (x0 : FVec Ideal S1024x512 .f32) (x1 : FVec Ideal S512x1024 .bf16) (x2 : IVec S1024x1 32)
    (r : Fin 1024) (z : Fin 1000 → EReal) (y : Fin 1000)
    (hz : ∀ j : Fin 1000, ∑ k : Fin 512, x0 (ix2 r k) * x1 (ix2 k (lane j)) = z j)
    (hy : x2 (ix2 r 0) = BitVec.ofNat 32 y.val) :
    k0_pay1 (F := Ideal) x0 x1 x2 (ix2 r 0) = kerRow z y := by
  -- row r of the masked logits is the padded row of z
  have hm := masked_apply x0 x1 r z hz
  unfold k0_pay1 kerRow padMax
  -- the stored value is (maximum + log of the exponential sum) less the selection sum, each a column read at (r, 0)
  refine (subf_apply _ _ _).trans (congrArg₂ (fun a b : EReal => a - b)
    ((addf_apply _ _ _).trans (congrArg₂ (fun a b : EReal => a + b) ?_ ((log_apply _ _).trans (congrArg Ideal.log ?_)))) ?_)
  · exact maxCol_apply _ _ _ _ _ r (padRow z) hm
  · exact expSumCol_apply _ _ _ _ _ _ _ r (padRow z) _ hm (maxCol_apply _ _ _ _ _ r (padRow z) hm)
  · exact pickCol_apply _ x2 _ _ _ _ _ _ _ r (padRow z) y hm hy

end Cert.SupCon

end
-- ==== Proof.Finite.lean ====
/-
  Finiteness: on real inputs the normalised centre and the logits are real numbers.

  * The printed floor of the norm is a positive real.
  * A column's sum of squares of reals is a real s ≥ 0, so its square root is the real square root; the maximum of
    that and the floor is a positive real.
  * A real divided by a nonzero real is a real, so every entry of the normalised centre is real.
  * A finite sum of products of reals is real, so every logit is real.
-/
import proofs.«402703_j25417616458229_3_alg».proof.Proof.Spec
import proofs.«402703_j25417616458229_3_alg».proof.Proof.LibPlainMatmul
import Mathlib.Algebra.Order.BigOperators.Group.Finset
import Mathlib.Data.EReal.Basic
import Mathlib.Data.EReal.Operations

noncomputable section

namespace Cert.SupCon

open Idealize.ShloMosaic Idealize.ShloMosaic.ValueIdx

/-- The printed floor (the word 0x2B8CBCCC, a normal pattern with a clear sign bit) is a positive real. -/
theorem floor_pos_real : ∃ e : ℝ, 0 < e ∧ Ideal.ofBits .f32 0x2B8CBCCC#32 = (e : EReal) := by
  simp [Ideal.ofBits, Ideal.ieee, -EReal.coe_mul]

/-- With every centre entry real, a column's floored norm is a positive real. -/
theorem colNorm_pos_real (x2 : FVec Ideal SCen .f32) (hx2 : ∀ i, ∃ r : ℝ, x2 i = (r : EReal)) (j : Fin 1000) :
    ∃ r : ℝ, 0 < r ∧ colNorm x2 j = (r : EReal) := by
  choose c hc using hx2
  obtain ⟨e, he, hE⟩ := floor_pos_real
  -- the sum of squares is a real, and it is not negative
  have hs : (∑ d : Fin 512, x2 (ix2 d j) * x2 (ix2 d j))
      = ((∑ d : Fin 512, c (ix2 d j) * c (ix2 d j) : ℝ) : EReal) := by
    rw [PlainMatmul.coe_sum]
    refine Finset.sum_congr rfl fun d _ => ?_
    rw [hc, EReal.coe_mul]
  have hs0 : 0 ≤ ∑ d : Fin 512, c (ix2 d j) * c (ix2 d j) :=
    Finset.sum_nonneg fun d _ => mul_self_nonneg _
  -- so its square root is the real one, and the maximum with the floor is at least the floor
  refine ⟨max (Real.sqrt (∑ d : Fin 512, c (ix2 d j) * c (ix2 d j))) e, lt_max_of_lt_right he, ?_⟩
  rw [colNorm, hs, Ideal.sqrt_coe, if_neg (not_lt.mpr hs0), hE, PlainMatmul.coe_max]

/-- So every entry of the normalised centre is real. -/
theorem cmat_real (x2 : FVec Ideal SCen .f32) (hx2 : ∀ i, ∃ r : ℝ, x2 i = (r : EReal)) (k : Fin 512) (j : Fin 1000) :
    ∃ r : ℝ, cmat x2 k j = (r : EReal) := by
  obtain ⟨n, hn, hN⟩ := colNorm_pos_real x2 hx2 j
  obtain ⟨c, hc⟩ := hx2 (ix2 k j)
  -- a real times the reciprocal of a nonzero real
  exact ⟨c * (1 / n), by rw [cmat, hN, Ideal.div_coe (ne_of_gt hn), hc, EReal.coe_mul]⟩

/-- And with every feature real too, every logit is real. -/
theorem logit_real (x0 : FVec Ideal SFeat .f32) (x2 : FVec Ideal SCen .f32)
    (hx0 : ∀ i, ∃ r : ℝ, x0 i = (r : EReal)) (hx2 : ∀ i, ∃ r : ℝ, x2 i = (r : EReal)) (b : Fin 16384) (j : Fin 1000) :
    ∃ r : ℝ, logit x0 x2 b j = (r : EReal) := by
  choose a ha using hx0
  choose m hm using fun k => cmat_real x2 hx2 k j
  -- a finite sum of products of reals
  refine ⟨∑ k : Fin 512, a (ix2 b k) * m k, ?_⟩
  rw [logit, PlainMatmul.coe_sum]
  refine Finset.sum_congr rfl fun k _ => ?_
  rw [ha, hm, EReal.coe_mul]

end Cert.SupCon

end
-- ==== Proof.KerValue.lean ====
/-
  The idealized kernel's result, read off its frame run.

  Grid point t stages rows t·1024 … t·1024 + 1023 of the features and of the labels, and the whole padded centre
  matrix; its stored block's row r is the kernel's spelling of the value of sample t·1024 + r (the payload read at
  an index, over the three block reads). The sixteen blocks tile the [16384, 1] result array, row b lying in the
  block of point b / 1024, so the array after the run holds every sample's value. The host epilogue sums the array
  from zero and divides by the printed count; on real logits the kernel's spelling of a sample's value is the
  reference's, so the result is the loss.
-/
import proofs.«402703_j25417616458229_3_alg».proof.Proof.Gen.KernelIdeal.Frame
import proofs.«402703_j25417616458229_3_alg».proof.Proof.KerHost
import proofs.«402703_j25417616458229_3_alg».proof.Proof.KerPayload
import proofs.«402703_j25417616458229_3_alg».proof.Proof.RefValue
import proofs.«402703_j25417616458229_3_alg».proof.Proof.RowMath
import proofs.«402703_j25417616458229_3_alg».proof.Proof.Finite
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.SupCon.KerValue

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.SupCon

variable (m : (ℓ : Loc nD τ sig) → Buf (Elt Ideal) ℓ)

/-- The three argument arrays on core c. -/
abbrev xf (c : Dev nD) : FVec Ideal SFeat .f32 := m ((c : Thread nD τ).loc main_arg0)
abbrev xl (c : Dev nD) : IVec SLab 32 := m ((c : Thread nD τ).loc main_arg1)
abbrev xc (c : Dev nD) : FVec Ideal SCen .f32 := m ((c : Thread nD τ).loc main_arg2)

/-- The printed index maps over the 16 grid points: the feature, label and result windows move one block of 1024
    rows per point, the centre window stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 16 := lt_of_lt_of_eq t.isLt N_0

/-- Row r of point t's feature block is row t·1024 + r of the features. -/
theorem blk0_read (c : Dev nD) (t : Fin cfg0.N) (r : Fin 1024) (k : Fin 512) (hb : t.val * 1024 + r.val < 16384) :
    iblk m c 0 t (ix2 r k) = xf m c (ix2 ⟨t.val * 1024 + r.val, hb⟩ k) := by
  show V m c main_arg0 (((cfg0.win 0).blk t).view.emb (ix2 r k)) = _
  rw [V_main_arg0]
  obtain ⟨e0, e1, -⟩ := idx_facts t
  refine congrArg (m ((c : Thread nD τ).loc main_arg0)) (funext fun a => Fin.ext ?_)
  match a with
  | ⟨0, _⟩ => show win0_0.index t (0 : Fin 2) * 1024 + 1 * r.val = t.val * 1024 + r.val; omega
  | ⟨1, _⟩ => show win0_0.index t (1 : Fin 2) * 512 + 1 * k.val = k.val; omega

/-- The centre window's one block, read at row k and a column below 1000, is the normalised centre's entry. -/
theorem blk1_read (c : Dev nD) (t : Fin cfg0.N) (k : Fin 512) (j : Fin 1000) :
    iblk m c 1 t (ix2 k (lane j)) = cmat (xc m c) k j := by
  show (V m c main_v6 : S512x1024.Idx → EReal) (((cfg0.win 1).blk t).view.emb (ix2 k (lane j))) = _
  obtain ⟨-, -, e0, e1, -⟩ := idx_facts t
  have he : ((cfg0.win 1).blk t).view.emb (ix2 k (lane j)) = ix2 k (lane j) := by
    funext a; apply Fin.ext
    match a with
    | ⟨0, _⟩ => show win0_1.index t (0 : Fin 2) * 512 + 1 * k.val = k.val; omega
    | ⟨1, _⟩ => show win0_1.index t (1 : Fin 2) * 1024 + 1 * (lane j).val = (lane j).val; omega
  rw [he, KerHost.V_v6_at m c k j]
  exact ref_cmat _ k j

/-- Row r of point t's label block is sample t·1024 + r's label word. -/
theorem blk2_read (c : Dev nD) (t : Fin cfg0.N) (r : Fin 1024) (hb : t.val * 1024 + r.val < 16384) :
    iblk m c 2 t (ix2 r (0 : Fin 1)) = xl m c (ix1 ⟨t.val * 1024 + r.val, hb⟩) := by
  show (V m c main_v7 : S16384x1.Idx → BitVec 32) (((cfg0.win 2).blk t).view.emb (ix2 r (0 : Fin 1))) = _
  obtain ⟨-, -, -, -, e0, e1, -⟩ := idx_facts t
  have he : ((cfg0.win 2).blk t).view.emb (ix2 r (0 : Fin 1)) = ix2 (⟨t.val * 1024 + r.val, hb⟩ : Fin 16384) (0 : Fin 1) := by
    funext a; apply Fin.ext
    match a with
    | ⟨0, _⟩ => show win0_2.index t (0 : Fin 2) * 1024 + 1 * r.val = t.val * 1024 + r.val; omega
    | ⟨1, _⟩ => show win0_2.index t (1 : Fin 2) * 1 + 1 * 0 = 0; omega
  rw [he]
  exact KerHost.V_v7_at m c _

/-- A label word below 1000 is the word of its class number. -/
theorem label_word (x1 : IVec SLab 32) (b : Fin 16384) (h : (x1 (ix1 b)).toNat < 1000) :
    x1 (ix1 b) = BitVec.ofNat 32 (label x1 b).val := by
  show x1 (ix1 b) = BitVec.ofNat 32 ((x1 (ix1 b)).toNat % 1000)
  rw [Nat.mod_eq_of_lt h, BitVec.ofNat_toNat, BitVec.setWidth_eq]

/-- What the result window's array holds after the run: at row b the kernel's spelling of sample b's value. -/
def G3 (c : Dev nD) : S16384x1.Idx → EReal := fun i =>
  kerRow (logit (xf m c) (xc m c) ⟨(i 0).val, idx2_lt0 i⟩) (label (xl m c) ⟨(i 0).val, idx2_lt0 i⟩)

theorem hz : (![0, 0] : Fin 2 → Nat) = fun _ => 0 := funext fun a => by fin_cases a <;> rfl

/-- What point t writes back is block t of that array. -/
theorem flushed3_eq (hlab : ∀ (c : Dev nD) (b : Fin 16384), (xl m c (ix1 b)).toNat < 1000) (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  unfold out0_3
  rw [View.canon_unit_zero hz]
  simp only [View.ld_unit_zero (S := S1024x512) hz, View.ld_unit_zero (S := S512x1024) hz, View.ld_unit_zero (S := S1024x1) hz]
  funext j
  obtain ⟨r, q, rfl⟩ : ∃ (r : Fin 1024) (q : Fin 1), j = ix2 r q := ⟨j 0, j 1, eq_ix2 j⟩
  obtain rfl : q = 0 := Subsingleton.elim _ _
  have ht := point_lt t
  have hb : t.val * 1024 + r.val < 16384 := by have := r.isLt; omega
  show k0_pay1 (F := Ideal) (iblk m c 0 t) (iblk m c 1 t) (iblk m c 2 t) (ix2 r (0 : Fin 1)) = G3 m c (((cfg0.win 3).blk t).view.emb (ix2 r (0 : Fin 1)))
  refine (pay_row (iblk m c 0 t) (iblk m c 1 t) (iblk m c 2 t) r (logit (xf m c) (xc m c) ⟨t.val * 1024 + r.val, hb⟩)
    (label (xl m c) ⟨t.val * 1024 + r.val, hb⟩) ?_ ?_).trans ?_
  · intro j'
    unfold logit
    refine Finset.sum_congr rfl fun k _ => ?_
    rw [blk0_read m c t r k hb, blk1_read m c t k j']
  · rw [blk2_read m c t r hb]
    exact label_word _ _ (hlab c _)
  · obtain ⟨-, -, -, -, -, -, e0, e1⟩ := idx_facts t
    have he : (⟨((((cfg0.win 3).blk t).view.emb (ix2 r (0 : Fin 1))) 0).val, idx2_lt0 _⟩ : Fin 16384) = ⟨t.val * 1024 + r.val, hb⟩ :=
      Fin.ext (by show win0_3.index t (0 : Fin 2) * 1024 + 1 * r.val = t.val * 1024 + r.val; omega)
    unfold G3
    rw [he]

/-- An index of the result array is in point t's block iff each coordinate is in the block's range on its axis. -/
theorem mem_blk3 (t : Fin cfg0.N) (i : S16384x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v8).slice (win0_3.rect t)).set ↔ _
  rw [View.set_slice_whole, Rect.mem_set_unit]
  exact Iff.rfl

/-- Every row is in the block of the point numbered row / 1024. -/
theorem cover3 (i : S16384x1.Idx) : ∃ t : Fin cfg0.N, (cfg0.win 3).flush t = true ∧ i ∈ ((cfg0.win 3).blk t).view.set := by
  have hi0 : (i 0).val < 16384 := idx2_lt0 i
  have hi1 : (i 1).val < 1 := (i 1).isLt
  have htN : (i 0).val / 1024 < cfg0.N := by rw [show cfg0.N = 16 from N_0]; omega
  refine ⟨⟨(i 0).val / 1024, htN⟩, flush0_3 _, ?_⟩
  rw [mem_blk3]
  obtain ⟨-, -, -, -, -, -, e0, e1⟩ := idx_facts ⟨(i 0).val / 1024, htN⟩
  intro a
  match a with
  | ⟨0, _⟩ =>
    show win0_3.index ⟨(i 0).val / 1024, htN⟩ (0 : Fin 2) * 1024 ≤ (i 0).val ∧ (i 0).val < win0_3.index ⟨(i 0).val / 1024, htN⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, htN⟩ (1 : Fin 2) * 1 ≤ (i 1).val ∧ (i 1).val < win0_3.index ⟨(i 0).val / 1024, htN⟩ (1 : Fin 2) * 1 + 1
    omega

/-- The result window's array after the run. -/
theorem final3 (hlab : ∀ (c : Dev nD) (b : Fin 16384), (xl m c (ix1 b)).toNat < 1000) (c : Dev nD) :
    (dats m 0 c).arrAt 3 cfg0.N = G3 m c :=
  (dats m 0 c).arrAt_eq_of_cover 3 (G3 m c) (fun t _ => flushed3_eq m hlab c t) cover3

/-- The host epilogue: the result is the sum of the result window's array from zero, divided by the printed count. -/
theorem tail_eq (c : Dev nD) :
    Pipeline.afterTail₀ cfgs (dats m) 0 (V0 m) [hostOps1] c main_v10
      = Host.divf (F := Ideal) (Host.reduceAdd (F := Ideal) ((dats m 0 c).arrAt 3 cfg0.N) (constant (F := Ideal) S_ .f32 0x00000000#32) reducesTo_S16384x1_S_d0_1 h_S_)
          (constant (F := Ideal) S_ .f32 0x46800000#32) := by
  unfold Pipeline.afterTail₀
  show StableHlo.after hostOps1 _ (Proc.devRef .tc main_v10) = _
  after_results
  have hw := Pipeline.withArrays_arr spec0 launch0.win.arr_inj c (V0 m c) (fun w => (dats m 0 c).arrAt w cfg0.N) 3
  exact congrArg (fun y => Host.divf (F := Ideal) (Host.reduceAdd (F := Ideal) y (constant (F := Ideal) S_ .f32 0x00000000#32) reducesTo_S16384x1_S_d0_1 h_S_)
          (constant (F := Ideal) S_ .f32 0x46800000#32)) hw

/-- The sum over the [16384, 1] array of sample values is the sum over the 16384 samples. -/
theorem sum_G3 (c : Dev nD) : ∑ i : S16384x1.Idx, G3 m c i = ∑ b : Fin 16384, kerRow (logit (xf m c) (xc m c) b) (label (xl m c) b) := by
  rw [sum_idx2]
  refine Finset.sum_congr rfl fun b _ => ?_
  rw [Fin.sum_univ_one]
  rfl

/-- THE KERNEL'S RESULT on finite inputs with labels in range: the loss. -/
theorem ker_value (hx0 : ∀ (c : Dev nD) i, ∃ r : ℝ, xf m c i = (r : EReal)) (hx2 : ∀ (c : Dev nD) i, ∃ r : ℝ, xc m c i = (r : EReal))
    (hlab : ∀ (c : Dev nD) (b : Fin 16384), (xl m c (ix1 b)).toNat < 1000) (c : Dev nD) :
    Pipeline.afterTail₀ cfgs (dats m) 0 (V0 m) [hostOps1] c main_v10 = fun _ => loss (xf m c) (xl m c) (xc m c) := by
  rw [tail_eq, final3 m hlab c]
  funext i
  show FloatOps.hostDivf (Host.reduceAdd (F := Ideal) (G3 m c) (constant (F := Ideal) S_ .f32 0x00000000#32) reducesTo_S16384x1_S_d0_1 h_S_ i) (Ideal.ofBits .f32 0x46800000#32) = _
  simp only [Host.reduceAdd, Ideal.hostReduceAdd_def]
  rw [Ideal.hostReduceAdd_total reducesTo_S16384x1_S_d0_1 (fun b => b.elim0) (G3 m c) _ i]
  show Ideal.div (Ideal.ofBits .f32 0x00000000#32 + ∑ i : S16384x1.Idx, G3 m c i) (Ideal.ofBits .f32 0x46800000#32) = _
  rw [Ideal.ofBits_zero_f32, zero_add, sum_G3]
  unfold loss
  refine congrArg (fun s => Ideal.div s (Ideal.ofBits .f32 0x46800000#32)) (Finset.sum_congr rfl fun b _ => ?_)
  exact kerRow_eq_refRow _ (fun j => logit_real _ _ (hx0 c) (hx2 c) b j) _

variable (ρ : Dev nD → PrngReg)

/-- THE IDEALIZED KERNEL'S RUN, read: on finite inputs with labels in range every weakly fair execution ends with the
    result at the loss and the three arguments unchanged. The result is what the host epilogue leaves; an argument
    staged by a window ends as the region found it, and one no window stages as the epilogue leaves it. -/
theorem run (hx0 : ∀ (c : Dev nD) i, ∃ r : ℝ, xf m c i = (r : EReal)) (hx2 : ∀ (c : Dev nD) i, ∃ r : ℝ, xc m c i = (r : EReal))
    (hlab : ∀ (c : Dev nD) (b : Fin 16384), (xl m c (ix1 b)).toNat < 1000) :
    θ_run defs (onTc (τ := τ) (main (F := Ideal))) ⟨m, fun _ => 0, ρ⟩ (fun r => ∀ c : Dev nD,
      r.2.mem ((c.tc : Thread nD τ).loc main_v10) = (fun _ => loss (xf m c) (xl m c) (xc m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v10 (Pipeline.mem_restRefs_of main_v10 (by decide) (by decide))).trans (ker_value m hx0 hx2 hlab c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.SupCon.KerValue

end
-- ==== Proof.lean ====
/-
  The certificate of a supervised-contrastive classification loss: 16384 samples of 512 features against 1000 class
  centres, the mean over the samples of minus the log-softmax of a sample's logits at its label.

  Both programs divide every column of the centre matrix by its Euclidean norm, floored at the same epsilon, by the
  same host operations; the logits are the features times that matrix. The reference takes the log-softmax over
  the 1000 classes and gathers it at the label. The kernel pads the class axis to 1024 lanes, fills the 24 extra
  lanes with a constant the certificate names minus infinity, takes the row maximum and the sum of exponentials
  over all 1024 lanes, and selects the label's logit by a masked lane sum. At the ideal values the extra lanes are
  the bottom element: they do not change the maximum, and their exponentials are zero, so the two log-sum-exps
  agree; with the labels in range the masked sum is the gathered logit; and on finite inputs every logit, the row
  maximum and the logarithm are real numbers, where (M + L) - t = -((t - M) - L).

  The precondition keeps the two float inputs finite and every label in [0, 1000). The three frames are the
  generated ones (the reference's is its run with the result dropped). The one ledger entry names the fill
  constant. The equivalence supplies the loss as the common result of both runs.
-/
import proofs.«402703_j25417616458229_3_alg».proof.Defs
import proofs.«402703_j25417616458229_3_alg».proof.Proof.Gen.Kernel
import proofs.«402703_j25417616458229_3_alg».proof.Proof.Gen.Kernel.Skeleton
import proofs.«402703_j25417616458229_3_alg».proof.Proof.Gen.Kernel.Launch
import proofs.«402703_j25417616458229_3_alg».proof.Proof.Gen.Kernel.Points
import proofs.«402703_j25417616458229_3_alg».proof.Proof.Gen.Kernel.Frame
import proofs.«402703_j25417616458229_3_alg».proof.Proof.Gen.KernelIdeal
import proofs.«402703_j25417616458229_3_alg».proof.Proof.Gen.KernelIdeal.Skeleton
import proofs.«402703_j25417616458229_3_alg».proof.Proof.Gen.KernelIdeal.Launch
import proofs.«402703_j25417616458229_3_alg».proof.Proof.Gen.KernelIdeal.Points
import proofs.«402703_j25417616458229_3_alg».proof.Proof.Gen.KernelIdeal.Frame
import proofs.«402703_j25417616458229_3_alg».proof.Proof.Gen.ReferenceIdeal
import proofs.«402703_j25417616458229_3_alg».proof.Proof.Gen.Pre_finite_inputs
import proofs.«402703_j25417616458229_3_alg».proof.Proof.RefRun
import proofs.«402703_j25417616458229_3_alg».proof.Proof.RefRead
import proofs.«402703_j25417616458229_3_alg».proof.Proof.PreFacts
import proofs.«402703_j25417616458229_3_alg».proof.Proof.RefValue
import proofs.«402703_j25417616458229_3_alg».proof.Proof.KerValue
import Idealize.ShloMosaic.Adequacy
import Idealize.ShloMosaic.Init

noncomputable section

namespace Cert.Proof

open Idealize.ShloMosaic Idealize.SL.Sem Cert.SupCon

/-- The word-level kernel runs and keeps its arguments: the generated frame. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ledger's one entry: the certificate's table gives the fill constant the bottom element. -/
theorem preserves : Cert.preserves_Kernel_KernelIdeal :=
  IdealRules.named_const.statement Cert.KernelIdeal.κ "neg_big" .f32 0xF149F2CA#32 ⊥ rfl

/-- Both idealized programs, run from memories that agree on the arguments, end with the loss of those arguments. -/
theorem algebraic : Cert.algebraic_KernelIdeal_ReferenceIdeal := by
  intro m ρ m' ρ' hpre hagree
  have hf := fun c => pre_facts _ _ _ (hpre c)
  refine ⟨fun c => fun _ => loss (KerValue.xf m c) (KerValue.xl m c) (KerValue.xc m c),
    KerValue.run m ρ (fun c => (hf c).1) (fun c => (hf c).2.1) (fun c => (hf c).2.2), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v12_eq, (hagree c).1, (hagree c).2.1, (hagree c).2.2]
  exact ref_value _ _ _ (hf c).2.2

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
